-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x2 : Shape := ⟨2, ![10000, 2]⟩
abbrev S10000x10000 : Shape := ⟨2, ![10000, 10000]⟩
abbrev S2x5 : Shape := ⟨2, ![2, 5]⟩
abbrev S5 : Shape := ⟨1, ![5]⟩
abbrev S5x1 : Shape := ⟨2, ![5, 1]⟩
abbrev S1 : Shape := ⟨1, ![1]⟩
abbrev S1x10000 : Shape := ⟨2, ![1, 10000]⟩
abbrev S_ : Shape := ⟨0, ![]⟩

class Facts : Prop where
  bcast_S_S10000x2 : S_.BroadcastsInDim S10000x2 (![] : Fin 0 → Fin S10000x2.rank)
  reducesTo_S10000x2_S_d0_1 : S10000x2.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S2x5 : S_.BroadcastsInDim S2x5 (![] : Fin 0 → Fin S2x5.rank)
  reducesTo_S2x5_S_d0_1 : S2x5.ReducesTo [0, 1] S_
  bcast_S_S5 : S_.BroadcastsInDim S5 (![] : Fin 0 → Fin S5.rank)
  reducesTo_S5_S_d0 : S5.ReducesTo [0] S_
  bcast_S_S5x1 : S_.BroadcastsInDim S5x1 (![] : Fin 0 → Fin S5x1.rank)
  reducesTo_S5x1_S_d0_1 : S5x1.ReducesTo [0, 1] S_
  bcast_S_S1 : S_.BroadcastsInDim S1 (![] : Fin 0 → Fin S1.rank)
  reducesTo_S1_S_d0 : S1.ReducesTo [0] S_
  bcast_S_S1x10000 : S_.BroadcastsInDim S1x10000 (![] : Fin 0 → Fin S1x10000.rank)
  reducesTo_S1x10000_S_d0_1 : S1x10000.ReducesTo [0, 1] S_

variable [Facts]

def fn_part2 {F : FTy → Type} [FloatOps F] (main_arg7 : FVec F S1 .f32) (main_v33 : IVec S_ 1) : IVec S_ 1 :=
  let main_v34 : FVec F S1 .f32 := Host.absf main_arg7
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  main_v38

def fn_part1 {F : FTy → Type} [FloatOps F] (main_arg4 : FVec F S5x1 .f32) (main_arg5 : FVec F S1 .f32) (main_arg6 : FVec F S1x10000 .f32) (main_arg7 : FVec F S1 .f32) (main_v13 : IVec S_ 1) (main_v16 : IVec S5 1) : IVec S_ 1 :=
  let main_c_5 : IVec S_ 1 := constantI S_ 1 1#1
  let main_v17 : IVec S_ 1 := (fun x v => Host.reduce IntOp.andi x v reducesTo_S5_S_d0 h_S_) main_v16 main_c_5
  let main_v18 : IVec S_ 1 := andi main_v13 main_v17
  let main_v19 : FVec F S5x1 .f32 := Host.absf main_arg4
  let main_cst_6 : FVec F S_ .f32 := constant S_ .f32 0x7F800000#32
  let main_v20 : FVec F S5x1 .f32 := broadcastInDim S5x1 ![] bcast_S_S5x1 main_cst_6
  let main_v21 : IVec S5x1 1 := cmpf .olt main_v19 main_v20
  let main_c_7 : IVec S_ 1 := constantI S_ 1 1#1
  let main_v22 : IVec S_ 1 := (fun x v => Host.reduce IntOp.andi x v reducesTo_S5x1_S_d0_1 h_S_) main_v21 main_c_7
  let main_v23 : IVec S_ 1 := andi main_v18 main_v22
  let main_v24 : FVec F S1 .f32 := Host.absf main_arg5
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  let main_v29 : FVec F S1x10000 .f32 := Host.absf main_arg6
  let main_cst_10 : FVec F S_ .f32 := constant S_ .f32 0x7F800000#32
  let main_v30 : FVec F S1x10000 .f32 := broadcastInDim S1x10000 ![] bcast_S_S1x10000 main_cst_10
  let main_v31 : IVec S1x10000 1 := cmpf .olt main_v29 main_v30
  let main_c_11 : IVec S_ 1 := constantI S_ 1 1#1
  let main_v32 : IVec S_ 1 := (fun x v => Host.reduce IntOp.andi x v reducesTo_S1x10000_S_d0_1 h_S_) main_v31 main_c_11
  let main_v33 : IVec S_ 1 := andi main_v28 main_v32
  fn_part2 (F := F) main_arg7 main_v33

def fn {F : FTy → Type} [FloatOps F] (main_arg0 : FVec F S10000x2 .f32) (main_arg1 : FVec F S10000x10000 .f32) (main_arg2 : FVec F S2x5 .f32) (main_arg3 : FVec F S5 .f32) (main_arg4 : FVec F S5x1 .f32) (main_arg5 : FVec F S1 .f32) (main_arg6 : FVec F S1x10000 .f32) (main_arg7 : FVec F S1 .f32) : IVec S_ 1 :=
  let main_v0 : FVec F S10000x2 .f32 := Host.absf main_arg0
  let main_cst : FVec F S_ .f32 := constant S_ .f32 0x7F800000#32
  let main_v1 : FVec F S10000x2 .f32 := broadcastInDim S10000x2 ![] bcast_S_S10000x2 main_cst
  let main_v2 : IVec S10000x2 1 := cmpf .olt main_v0 main_v1
  let main_c : IVec S_ 1 := constantI S_ 1 1#1
  let main_v3 : IVec S_ 1 := (fun x v => Host.reduce IntOp.andi x v reducesTo_S10000x2_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S2x5 .f32 := Host.absf main_arg2
  let main_cst_2 : FVec F S_ .f32 := constant S_ .f32 0x7F800000#32
  let main_v10 : FVec F S2x5 .f32 := broadcastInDim S2x5 ![] bcast_S_S2x5 main_cst_2
  let main_v11 : IVec S2x5 1 := cmpf .olt main_v9 main_v10
  let main_c_3 : IVec S_ 1 := constantI S_ 1 1#1
  let main_v12 : IVec S_ 1 := (fun x v => Host.reduce IntOp.andi x v reducesTo_S2x5_S_d0_1 h_S_) main_v11 main_c_3
  let main_v13 : IVec S_ 1 := andi main_v8 main_v12
  let main_v14 : FVec F S5 .f32 := Host.absf main_arg3
  let main_cst_4 : FVec F S_ .f32 := constant S_ .f32 0x7F800000#32
  let main_v15 : FVec F S5 .f32 := broadcastInDim S5 ![] bcast_S_S5 main_cst_4
  let main_v16 : IVec S5 1 := cmpf .olt main_v14 main_v15
  fn_part1 (F := F) main_arg4 main_arg5 main_arg6 main_arg7 main_v13 main_v16
-- ==== Kernel.lean ====
abbrev S10000x2 : Shape := ⟨2, ![10000, 2]⟩
abbrev S10000x10000 : Shape := ⟨2, ![10000, 10000]⟩
abbrev S2x5 : Shape := ⟨2, ![2, 5]⟩
abbrev S5 : Shape := ⟨1, ![5]⟩
abbrev S5x1 : Shape := ⟨2, ![5, 1]⟩
abbrev S1 : Shape := ⟨1, ![1]⟩
abbrev S1x10000 : Shape := ⟨2, ![1, 10000]⟩
abbrev S10000x5 : Shape := ⟨2, ![10000, 5]⟩
abbrev S400x10000 : Shape := ⟨2, ![400, 10000]⟩
abbrev S400x5 : Shape := ⟨2, ![400, 5]⟩
abbrev S1x5 : Shape := ⟨2, ![1, 5]⟩
abbrev S_ : Shape := ⟨0, ![]⟩
abbrev S10000x1 : Shape := ⟨2, ![10000, 1]⟩
abbrev S400x1 : Shape := ⟨2, ![400, 1]⟩
abbrev S1x1 : Shape := ⟨2, ![1, 1]⟩

abbrev nBuf : Space → Nat
  | .hbm => 34
  | .vmem => 10
  | .smem => 0
  | _ => 0

abbrev bufTy : (tb : Table) → Fin (tcTables nBuf tb) → BufTy
  | .hbm, ⟨0, _⟩ => ⟨S10000x2, .f32⟩
  | .hbm, ⟨1, _⟩ => ⟨S10000x10000, .f32⟩
  | .hbm, ⟨2, _⟩ => ⟨S2x5, .f32⟩
  | .hbm, ⟨3, _⟩ => ⟨S5, .f32⟩
  | .hbm, ⟨4, _⟩ => ⟨S5x1, .f32⟩
  | .hbm, ⟨5, _⟩ => ⟨S1, .f32⟩
  | .hbm, ⟨6, _⟩ => ⟨S1x10000, .f32⟩
  | .hbm, ⟨7, _⟩ => ⟨S1, .f32⟩
  | .hbm, ⟨8, _⟩ => ⟨S10000x5, .f32⟩
  | .hbm, ⟨9, _⟩ => ⟨S10000x5, .f32⟩
  | .hbm, ⟨10, _⟩ => ⟨S1x5, .f32⟩
  | .hbm, ⟨11, _⟩ => ⟨S10000x5, .f32⟩
  | .hbm, ⟨12, _⟩ => ⟨S10000x5, .f32⟩
  | .hbm, ⟨13, _⟩ => ⟨S_, .f32⟩
  | .hbm, ⟨14, _⟩ => ⟨S10000x5, .f32⟩
  | .hbm, ⟨15, _⟩ => ⟨S10000x5, .f32⟩
  | .hbm, ⟨16, _⟩ => ⟨S10000x1, .f32⟩
  | .hbm, ⟨17, _⟩ => ⟨S10000x1, .f32⟩
  | .hbm, ⟨18, _⟩ => ⟨S1x1, .f32⟩
  | .hbm, ⟨19, _⟩ => ⟨S10000x1, .f32⟩
  | .hbm, ⟨20, _⟩ => ⟨S10000x1, .f32⟩
  | .hbm, ⟨21, _⟩ => ⟨S1x10000, .f32⟩
  | .hbm, ⟨22, _⟩ => ⟨S10000x1, .f32⟩
  | .hbm, ⟨23, _⟩ => ⟨S1x1, .f32⟩
  | .hbm, ⟨24, _⟩ => ⟨S1x1, .f32⟩
  | .hbm, ⟨25, _⟩ => ⟨S1x1, .f32⟩
  | .hbm, ⟨26, _⟩ => ⟨S1x1, .f32⟩
  | .hbm, ⟨27, _⟩ => ⟨S1x1, .f32⟩
  | .hbm, ⟨28, _⟩ => ⟨S_, .f32⟩
  | .hbm, ⟨29, _⟩ => ⟨S1x1, .f32⟩
  | .hbm, ⟨30, _⟩ => ⟨S1x1, .f32⟩
  | .hbm, ⟨31, _⟩ => ⟨S_, .f32⟩
  | .hbm, ⟨32, _⟩ => ⟨S1x1, .f32⟩
  | .hbm, ⟨33, _⟩ => ⟨S1x1, .f32⟩
  | .local _ .vmem, ⟨0, _⟩ => ⟨S400x10000, .f32⟩
  | .local _ .vmem, ⟨1, _⟩ => ⟨S400x10000, .f32⟩
  | .local _ .vmem, ⟨2, _⟩ => ⟨S10000x5, .f32⟩
  | .local _ .vmem, ⟨3, _⟩ => ⟨S400x5, .f32⟩
  | .local _ .vmem, ⟨4, _⟩ => ⟨S400x5, .f32⟩
  | .local _ .vmem, ⟨5, _⟩ => ⟨S400x10000, .f32⟩
  | .local _ .vmem, ⟨6, _⟩ => ⟨S400x10000, .f32⟩
  | .local _ .vmem, ⟨7, _⟩ => ⟨S10000x1, .f32⟩
  | .local _ .vmem, ⟨8, _⟩ => ⟨S400x1, .f32⟩
  | .local _ .vmem, ⟨9, _⟩ => ⟨S400x1, .f32⟩
  | _, _ => ⟨S10000x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_call0_cst : Ref sig .tc := ⟨.hbm, 13, rfl⟩
abbrev main_call0_v0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst : Ref sig .tc := ⟨.hbm, 28, rfl⟩
abbrev main_v18 : Ref sig .tc := ⟨.hbm, 29, rfl⟩
abbrev main_v19 : Ref sig .tc := ⟨.hbm, 30, rfl⟩
abbrev main_cst_0 : Ref sig .tc := ⟨.hbm, 31, rfl⟩
abbrev main_v20 : Ref sig .tc := ⟨.hbm, 32, rfl⟩
abbrev main_v21 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x5 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S400x5 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S400x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  inb_S400x10000_S400x10000_0_0 : ∀ a, (![0, 0] : Fin 2 → Nat) a + S400x10000.size a ≤ S400x10000.size a
  h_S400x10000 : 0 < S400x10000.numel
  inb_S10000x5_S10000x5_0_0 : ∀ a, (![0, 0] : Fin 2 → Nat) a + S10000x5.size a ≤ S10000x5.size a
  h_S10000x5 : 0 < S10000x5.numel
  shapeCasts_S10000x5_S10000x5 : S10000x5.ShapeCasts S10000x5
  inb_S400x5_S400x5_0_0 : ∀ a, (![0, 0] : Fin 2 → Nat) a + S400x5.size a ≤ S400x5.size a
  h_S400x5 : 0 < S400x5.numel
  bcast_S5_S1x5_1 : S5.BroadcastsInDim S1x5 (![1] : Fin 1 → Fin S1x5.rank)
  bcast_S1x5_S10000x5_0_1 : S1x5.BroadcastsInDim S10000x5 (![0, 1] : Fin 2 → Fin S10000x5.rank)
  bcast_S_S10000x5 : S_.BroadcastsInDim S10000x5 (![] : Fin 0 → Fin S10000x5.rank)
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  inb_S400x1_S400x1_0_0 : ∀ a, (![0, 0] : Fin 2 → Nat) a + S400x1.size a ≤ S400x1.size a
  h_S400x1 : 0 < S400x1.numel
  bcast_S1_S1x1_1 : S1.BroadcastsInDim S1x1 (![1] : Fin 1 → Fin S1x1.rank)
  bcast_S1x1_S10000x1_0_1 : S1x1.BroadcastsInDim S10000x1 (![0, 1] : Fin 2 → Fin S10000x1.rank)
  shapeCasts_S10000x1_S1x10000 : S10000x1.ShapeCasts S1x10000
  transposes_S1x10000_S10000x1_1_0 : S1x10000.Transposes [1, 0] S10000x1
  bcast_S_S1x1 : S_.BroadcastsInDim S1x1 (![] : Fin 0 → Fin S1x1.rank)
  dot_S10000x2_S2x5_S10000x5_1_0_0_1_n_n_wf : DotDims.WF S10000x2 S2x5 S10000x5 [1] [0] [0] [1] [] []
  dot_S400x10000_S10000x5_S400x5_1_0_0_1_n_n_wf : DotDims.WF S400x10000 S10000x5 S400x5 [1] [0] [0] [1] [] []
  dot_S10000x5_S5x1_S10000x1_1_0_0_1_n_n_wf : DotDims.WF S10000x5 S5x1 S10000x1 [1] [0] [0] [1] [] []
  dot_S400x10000_S10000x1_S400x1_1_0_0_1_n_n_wf : DotDims.WF S400x10000 S10000x1 S400x1 [1] [0] [0] [1] [] []
  dot_S1x10000_S10000x1_S1x1_1_0_0_1_n_n_wf : DotDims.WF S1x10000 S10000x1 S1x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x10000.size a ≤ S10000x10000.size a
  hwx0_0 : ∀ i : grid0.Coords, EltTy.bits .f32 = 32 ∨ (Rect.block (s := S10000x10000) S400x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x5.size a ≤ S10000x5.size a
  hwx0_1 : ∀ i : grid0.Coords, EltTy.bits .f32 = 32 ∨ (Rect.block (s := S10000x5) S10000x5.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S400x5.size a ≤ S10000x5.size a
  hwx0_2 : ∀ i : grid0.Coords, EltTy.bits .f32 = 32 ∨ (Rect.block (s := S10000x5) S400x5.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x10000.size a ≤ S10000x10000.size a
  hwx1_0 : ∀ i : grid1.Coords, EltTy.bits .f32 = 32 ∨ (Rect.block (s := S10000x10000) S400x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x1.size a ≤ S10000x1.size a
  hwx1_1 : ∀ i : grid1.Coords, EltTy.bits .f32 = 32 ∨ (Rect.block (s := S10000x1) S10000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S400x1.size a ≤ S10000x1.size a
  hwx1_2 : ∀ i : grid1.Coords, EltTy.bits .f32 = 32 ∨ (Rect.block (s := S10000x1) S400x1.size (cc1_transform_2 i) (hinb1_2 i)).WholeWords (EltTy.packing .f32)

variable [Facts₀]

def dot_S10000x2_S2x5_S10000x5_1_0_0_1_n_n : DotDims S10000x2 S2x5 S10000x5 where
  lhsContracting := [1]
  rhsContracting := [0]
  lhsNonContracting := [0]
  rhsNonContracting := [1]
  lhsBatch := []
  rhsBatch := []
  wf := dot_S10000x2_S2x5_S10000x5_1_0_0_1_n_n_wf
def dot_S400x10000_S10000x5_S400x5_1_0_0_1_n_n : DotDims S400x10000 S10000x5 S400x5 where
  lhsContracting := [1]
  rhsContracting := [0]
  lhsNonContracting := [0]
  rhsNonContracting := [1]
  lhsBatch := []
  rhsBatch := []
  wf := dot_S400x10000_S10000x5_S400x5_1_0_0_1_n_n_wf
def dot_S10000x5_S5x1_S10000x1_1_0_0_1_n_n : DotDims S10000x5 S5x1 S10000x1 where
  lhsContracting := [1]
  rhsContracting := [0]
  lhsNonContracting := [0]
  rhsNonContracting := [1]
  lhsBatch := []
  rhsBatch := []
  wf := dot_S10000x5_S5x1_S10000x1_1_0_0_1_n_n_wf
def dot_S400x10000_S10000x1_S400x1_1_0_0_1_n_n : DotDims S400x10000 S10000x1 S400x1 where
  lhsContracting := [1]
  rhsContracting := [0]
  lhsNonContracting := [0]
  rhsNonContracting := [1]
  lhsBatch := []
  rhsBatch := []
  wf := dot_S400x10000_S10000x1_S400x1_1_0_0_1_n_n_wf
def dot_S1x10000_S10000x1_S1x1_1_0_0_1_n_n : DotDims S1x10000 S10000x1 S1x1 where
  lhsContracting := [1]
  rhsContracting := [0]
  lhsNonContracting := [0]
  rhsNonContracting := [1]
  lhsBatch := []
  rhsBatch := []
  wf := dot_S1x10000_S10000x1_S1x1_1_0_0_1_n_n_wf

abbrev win0_0 : Pipeline.Window sig grid0 :=
  Pipeline.Window.ofSpec (Memref.whole main_arg1) S400x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S10000x5.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S400x5.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S400x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S10000x1.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v7) S400x1.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S10000x2 : Shape := ⟨2, ![10000, 2]⟩
abbrev S10000x10000 : Shape := ⟨2, ![10000, 10000]⟩
abbrev S2x5 : Shape := ⟨2, ![2, 5]⟩
abbrev S5 : Shape := ⟨1, ![5]⟩
abbrev S5x1 : Shape := ⟨2, ![5, 1]⟩
abbrev S1 : Shape := ⟨1, ![1]⟩
abbrev S1x10000 : Shape := ⟨2, ![1, 10000]⟩
abbrev S10000x5 : Shape := ⟨2, ![10000, 5]⟩
abbrev S1x5 : Shape := ⟨2, ![1, 5]⟩
abbrev S_ : Shape := ⟨0, ![]⟩
abbrev S10000x1 : Shape := ⟨2, ![10000, 1]⟩
abbrev S1x1 : Shape := ⟨2, ![1, 1]⟩

abbrev nBuf : Space → Nat
  | .hbm => 34
  | .vmem => 0
  | .smem => 0
  | _ => 0

abbrev bufTy : (tb : Table) → Fin (tcTables nBuf tb) → BufTy
  | .hbm, ⟨0, _⟩ => ⟨S10000x2, .f32⟩
  | .hbm, ⟨1, _⟩ => ⟨S10000x10000, .f32⟩
  | .hbm, ⟨2, _⟩ => ⟨S2x5, .f32⟩
  | .hbm, ⟨3, _⟩ => ⟨S5, .f32⟩
  | .hbm, ⟨4, _⟩ => ⟨S5x1, .f32⟩
  | .hbm, ⟨5, _⟩ => ⟨S1, .f32⟩
  | .hbm, ⟨6, _⟩ => ⟨S1x10000, .f32⟩
  | .hbm, ⟨7, _⟩ => ⟨S1, .f32⟩
  | .hbm, ⟨8, _⟩ => ⟨S10000x5, .f32⟩
  | .hbm, ⟨9, _⟩ => ⟨S10000x5, .f32⟩
  | .hbm, ⟨10, _⟩ => ⟨S1x5, .f32⟩
  | .hbm, ⟨11, _⟩ => ⟨S10000x5, .f32⟩
  | .hbm, ⟨12, _⟩ => ⟨S10000x5, .f32⟩
  | .hbm, ⟨13, _⟩ => ⟨S_, .f32⟩
  | .hbm, ⟨14, _⟩ => ⟨S10000x5, .f32⟩
  | .hbm, ⟨15, _⟩ => ⟨S10000x5, .f32⟩
  | .hbm, ⟨16, _⟩ => ⟨S10000x1, .f32⟩
  | .hbm, ⟨17, _⟩ => ⟨S10000x1, .f32⟩
  | .hbm, ⟨18, _⟩ => ⟨S1x1, .f32⟩
  | .hbm, ⟨19, _⟩ => ⟨S10000x1, .f32⟩
  | .hbm, ⟨20, _⟩ => ⟨S10000x1, .f32⟩
  | .hbm, ⟨21, _⟩ => ⟨S1x10000, .f32⟩
  | .hbm, ⟨22, _⟩ => ⟨S10000x1, .f32⟩
  | .hbm, ⟨23, _⟩ => ⟨S1x1, .f32⟩
  | .hbm, ⟨24, _⟩ => ⟨S1x1, .f32⟩
  | .hbm, ⟨25, _⟩ => ⟨S1x1, .f32⟩
  | .hbm, ⟨26, _⟩ => ⟨S1x1, .f32⟩
  | .hbm, ⟨27, _⟩ => ⟨S1x1, .f32⟩
  | .hbm, ⟨28, _⟩ => ⟨S_, .f32⟩
  | .hbm, ⟨29, _⟩ => ⟨S1x1, .f32⟩
  | .hbm, ⟨30, _⟩ => ⟨S1x1, .f32⟩
  | .hbm, ⟨31, _⟩ => ⟨S_, .f32⟩
  | .hbm, ⟨32, _⟩ => ⟨S1x1, .f32⟩
  | .hbm, ⟨33, _⟩ => ⟨S1x1, .f32⟩
  | _, _ => ⟨S10000x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_call0_cst : Ref sig .tc := ⟨.hbm, 13, rfl⟩
abbrev main_call0_v0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst : Ref sig .tc := ⟨.hbm, 28, rfl⟩
abbrev main_v18 : Ref sig .tc := ⟨.hbm, 29, rfl⟩
abbrev main_v19 : Ref sig .tc := ⟨.hbm, 30, rfl⟩
abbrev main_cst_0 : Ref sig .tc := ⟨.hbm, 31, rfl⟩
abbrev main_v20 : Ref sig .tc := ⟨.hbm, 32, rfl⟩
abbrev main_v21 : Ref sig .tc := ⟨.hbm, 33, rfl⟩

abbrev nD : Nat := 1
abbrev τ : Topo := Topo.v7x

variable {F : FTy → Type} [FloatOps F]

class Facts₀ : Prop where
  bcast_S5_S1x5_1 : S5.BroadcastsInDim S1x5 (![1] : Fin 1 → Fin S1x5.rank)
  bcast_S1x5_S10000x5_0_1 : S1x5.BroadcastsInDim S10000x5 (![0, 1] : Fin 2 → Fin S10000x5.rank)
  bcast_S_S10000x5 : S_.BroadcastsInDim S10000x5 (![] : Fin 0 → Fin S10000x5.rank)
  bcast_S1_S1x1_1 : S1.BroadcastsInDim S1x1 (![1] : Fin 1 → Fin S1x1.rank)
  bcast_S1x1_S10000x1_0_1 : S1x1.BroadcastsInDim S10000x1 (![0, 1] : Fin 2 → Fin S10000x1.rank)
  shapeCasts_S10000x1_S1x10000 : S10000x1.ShapeCasts S1x10000
  transposes_S1x10000_S10000x1_1_0 : S1x10000.Transposes [1, 0] S10000x1
  bcast_S_S1x1 : S_.BroadcastsInDim S1x1 (![] : Fin 0 → Fin S1x1.rank)
  dot_S10000x2_S2x5_S10000x5_1_0_0_1_n_n_wf : DotDims.WF S10000x2 S2x5 S10000x5 [1] [0] [0] [1] [] []
  dot_S10000x10000_S10000x5_S10000x5_1_0_0_1_n_n_wf : DotDims.WF S10000x10000 S10000x5 S10000x5 [1] [0] [0] [1] [] []
  dot_S10000x5_S5x1_S10000x1_1_0_0_1_n_n_wf : DotDims.WF S10000x5 S5x1 S10000x1 [1] [0] [0] [1] [] []
  dot_S10000x10000_S10000x1_S10000x1_1_0_0_1_n_n_wf : DotDims.WF S10000x10000 S10000x1 S10000x1 [1] [0] [0] [1] [] []
  dot_S1x10000_S10000x1_S1x1_1_0_0_1_n_n_wf : DotDims.WF S1x10000 S10000x1 S1x1 [1] [0] [0] [1] [] []

variable [Facts₀]

def dot_S10000x2_S2x5_S10000x5_1_0_0_1_n_n : DotDims S10000x2 S2x5 S10000x5 where
  lhsContracting := [1]
  rhsContracting := [0]
  lhsNonContracting := [0]
  rhsNonContracting := [1]
  lhsBatch := []
  rhsBatch := []
  wf := dot_S10000x2_S2x5_S10000x5_1_0_0_1_n_n_wf
def dot_S10000x10000_S10000x5_S10000x5_1_0_0_1_n_n : DotDims S10000x10000 S10000x5 S10000x5 where
  lhsContracting := [1]
  rhsContracting := [0]
  lhsNonContracting := [0]
  rhsNonContracting := [1]
  lhsBatch := []
  rhsBatch := []
  wf := dot_S10000x10000_S10000x5_S10000x5_1_0_0_1_n_n_wf
def dot_S10000x5_S5x1_S10000x1_1_0_0_1_n_n : DotDims S10000x5 S5x1 S10000x1 where
  lhsContracting := [1]
  rhsContracting := [0]
  lhsNonContracting := [0]
  rhsNonContracting := [1]
  lhsBatch := []
  rhsBatch := []
  wf := dot_S10000x5_S5x1_S10000x1_1_0_0_1_n_n_wf
def dot_S10000x10000_S10000x1_S10000x1_1_0_0_1_n_n : DotDims S10000x10000 S10000x1 S10000x1 where
  lhsContracting := [1]
  rhsContracting := [0]
  lhsNonContracting := [0]
  rhsNonContracting := [1]
  lhsBatch := []
  rhsBatch := []
  wf := dot_S10000x10000_S10000x1_S10000x1_1_0_0_1_n_n_wf
def dot_S1x10000_S10000x1_S1x1_1_0_0_1_n_n : DotDims S1x10000 S10000x1 S1x1 where
  lhsContracting := [1]
  rhsContracting := [0]
  lhsNonContracting := [0]
  rhsNonContracting := [1]
  lhsBatch := []
  rhsBatch := []
  wf := dot_S1x10000_S10000x1_S1x1_1_0_0_1_n_n_wf

class Facts : Prop extends Facts₀ where

variable [Facts]
-- ==== Proof.DotSum.lean ====
/-
  A product with ONE contracted axis of extent n, read at an output index at the extended reals: the sum over
  k < n of the left operand at L k times the right operand at R k, where L and R are the operand positions the
  dimension record assigns to the output index and the contraction coordinate k. The same for the on-chip product
  accumulated into zero.
-/
import Idealize.ShloMosaic.Lib.ValueIdx
import Idealize.ShloMosaic.PureOps.Ideal.Laws

noncomputable section

open Idealize.ShloMosaic

namespace DotSum

/-- The host's product at an index, re-indexed along its one contracted axis. -/
theorem dotGeneral_sum {sl sr so : Shape} {φ₁ φ₂ : FTy} (d : DotDims sl sr so) (n : Nat)
    (hr : d.contr.rank = 1) (hs : d.contr.size ⟨0, by omega⟩ = n)
    (prec : Option ContractPrecision) (sched : HostSchedule)
    (l : FVec Ideal sl φ₁) (r : FVec Ideal sr φ₂) (j : so.Idx)
    (L : Fin n → sl.Idx) (R : Fin n → sr.Idx)
    (hL : ∀ q : d.contr.Idx, d.lhsIdx j q = L (ValueIdx.contrEquiv1 d n hr hs q))
    (hR : ∀ q : d.contr.Idx, d.rhsIdx j q = R (ValueIdx.contrEquiv1 d n hr hs q)) :
    FloatOps.dotGeneral d prec sched l r j = ∑ k : Fin n, l (L k) * r (R k) := by
  rw [Ideal.dotGeneral_apply, ← Equiv.sum_comp (ValueIdx.contrEquiv1 d n hr hs)]
  exact Finset.sum_congr rfl fun q _ => by rw [hL q, hR q]

/-- The on-chip product into a zero accumulator at an index, re-indexed the same way. -/
theorem matmul_zero_sum {sl sr so : Shape} {φ₁ φ₂ : FTy} (d : DotDims sl sr so) (n : Nat)
    (hr : d.contr.rank = 1) (hs : d.contr.size ⟨0, by omega⟩ = n)
    (prec : Option ContractPrecision)
    (l : FVec Ideal sl φ₁) (r : FVec Ideal sr φ₂) (j : so.Idx)
    (L : Fin n → sl.Idx) (R : Fin n → sr.Idx)
    (hL : ∀ q : d.contr.Idx, d.lhsIdx j q = L (ValueIdx.contrEquiv1 d n hr hs q))
    (hR : ∀ q : d.contr.Idx, d.rhsIdx j q = R (ValueIdx.contrEquiv1 d n hr hs q)) :
    FloatOps.matmul d prec l r (constant so .f32 0x00000000#32) j = ∑ k : Fin n, l (L k) * r (R k) := by
  rw [Ideal.matmul_constant_zero_apply, ← Equiv.sum_comp (ValueIdx.contrEquiv1 d n hr hs)]
  exact Finset.sum_congr rfl fun q _ => by rw [hL q, hR q]

end DotSum

end
-- ==== Proof.Rows5.lean ====
/-
  The first row-tiled product. Each of the 25 grid points multiplies a 400-row slab of the adjacency matrix by the
  whole 10000×5 right operand into a zero accumulator and writes the 400×5 result back as rows 400·t … 400·t + 399
  of the output. At the extended reals entry (r, j) of that slab product is the sum over k of A(400·t + r, k) · w(k, j),
  which is entry (400·t + r, j) of the whole product A · w: the slabs tile the rows, so the output array ends
  holding the whole product.
-/
import proofs.«145761_j6055903887557_1_alg».proof.Proof.Gen.KernelIdeal.Frame
import proofs.«145761_j6055903887557_1_alg».proof.Proof.Gen.ReferenceIdeal
import proofs.«145761_j6055903887557_1_alg».proof.Proof.DotSum
import Idealize.ShloMosaic.Lib.Pipeline.Value

set_option maxRecDepth 16384

noncomputable section

open Idealize.ShloMosaic Idealize.ShloMosaic.TcCoe Idealize.SL.Sem
open Idealize.ShloMosaic.Pipeline (Dat)

namespace Cert.KernelIdeal.Rows5

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-! ## The slab product's dimension record, axis by axis -/

abbrev dK := dot_S400x10000_S10000x5_S400x5_1_0_0_1_n_n

theorem lhs_0 (i : S400x5.Idx) (q : dK.contr.Idx) : (dK.lhsIdx i q 0).val = (i 0).val := by
  unfold DotDims.lhsIdx
  rw [dif_neg (show ¬(0 : Fin S400x10000.rank) ∈ dK.lhsBatch by decide), dif_pos (show (0 : Fin S400x10000.rank) ∈ dK.lhsNonContracting by decide)]
  rfl
theorem lhs_1 (i : S400x5.Idx) (q : dK.contr.Idx) : (dK.lhsIdx i q 1).val = (q ⟨0, by decide⟩).val :=
  dK.lhsIdx_val_of_single rfl i q
theorem rhs_0 (i : S400x5.Idx) (q : dK.contr.Idx) : (dK.rhsIdx i q 0).val = (q ⟨0, by decide⟩).val :=
  dK.rhsIdx_val_of_single rfl i q
theorem rhs_1 (i : S400x5.Idx) (q : dK.contr.Idx) : (dK.rhsIdx i q 1).val = (i 1).val := by
  unfold DotDims.rhsIdx
  rw [dif_neg (show ¬(1 : Fin S10000x5.rank) ∈ dK.rhsBatch by decide), dif_pos (show (1 : Fin S10000x5.rank) ∈ dK.rhsNonContracting by decide)]
  rfl

/-- Row `r`, column `k` of a slab. -/
abbrev slabIdx (r : Fin 400) (k : Fin 10000) : S400x10000.Idx := fun a => match a with
  | ⟨0, _⟩ => r
  | ⟨1, _⟩ => k
/-- Row `k`, column `j` of the right operand. -/
abbrev colIdx (k : Fin 10000) (j : Fin 5) : S10000x5.Idx := fun a => match a with
  | ⟨0, _⟩ => k
  | ⟨1, _⟩ => j
/-- Row `r`, column `k` of the whole matrix. -/
abbrev matIdx (r : Fin 10000) (k : Fin 10000) : S10000x10000.Idx := fun a => match a with
  | ⟨0, _⟩ => r
  | ⟨1, _⟩ => k

/-- The body's stored value at (r, j): the sum over k of slab(r, k) · w(k, j). -/
theorem pay_apply (x0 : Vec Ideal S400x10000 .f32) (x1 : Vec Ideal S10000x5 .f32) (i : S400x5.Idx) :
    k0_pay1 (F := Ideal) x0 x1 i = ∑ k : Fin 10000, x0 (slabIdx (i 0) k) * x1 (colIdx k (i 1)) := by
  unfold k0_pay1
  simp only [shapeCast_self, matmul]
  refine DotSum.matmul_zero_sum dK 10000 rfl rfl (some .fp32) x0 x1 i _ _ (fun q => ?_) (fun q => ?_)
  · funext a; apply Fin.ext
    match a with
    | ⟨0, _⟩ => exact lhs_0 _ _
    | ⟨1, _⟩ => exact lhs_1 _ _
  · funext a; apply Fin.ext
    match a with
    | ⟨0, _⟩ => exact rhs_0 _ _
    | ⟨1, _⟩ => exact rhs_1 _ _

/-! ## The whole product -/

/-- The whole product's dimension record (the one the reference's product of these shapes carries). -/
abbrev dB := Cert.ReferenceIdeal.dot_S10000x10000_S10000x5_S10000x5_1_0_0_1_n_n

/-- What the output array ends holding: the whole matrix times the whole right operand. -/
abbrev whole (A : FVec Ideal S10000x10000 .f32) (w : FVec Ideal S10000x5 .f32) : FVec Ideal S10000x5 .f32 :=
  Host.dotGeneral dB none A w

theorem big_lhs_0 (i : S10000x5.Idx) (q : dB.contr.Idx) : (dB.lhsIdx i q 0).val = (i 0).val := by
  unfold DotDims.lhsIdx
  rw [dif_neg (show ¬(0 : Fin S10000x10000.rank) ∈ dB.lhsBatch by decide), dif_pos (show (0 : Fin S10000x10000.rank) ∈ dB.lhsNonContracting by decide)]
  rfl
theorem big_lhs_1 (i : S10000x5.Idx) (q : dB.contr.Idx) : (dB.lhsIdx i q 1).val = (q ⟨0, by decide⟩).val :=
  dB.lhsIdx_val_of_single rfl i q
theorem big_rhs_0 (i : S10000x5.Idx) (q : dB.contr.Idx) : (dB.rhsIdx i q 0).val = (q ⟨0, by decide⟩).val :=
  dB.rhsIdx_val_of_single rfl i q
theorem big_rhs_1 (i : S10000x5.Idx) (q : dB.contr.Idx) : (dB.rhsIdx i q 1).val = (i 1).val := by
  unfold DotDims.rhsIdx
  rw [dif_neg (show ¬(1 : Fin S10000x5.rank) ∈ dB.rhsBatch by decide), dif_pos (show (1 : Fin S10000x5.rank) ∈ dB.rhsNonContracting by decide)]
  rfl

/-- Entry (r, j) of the whole product: the sum over k of A(r, k) · w(k, j). -/
theorem whole_apply (A : FVec Ideal S10000x10000 .f32) (w : FVec Ideal S10000x5 .f32) (i : S10000x5.Idx) :
    whole A w i = ∑ k : Fin 10000, A (matIdx (i 0) k) * w (colIdx k (i 1)) := by
  unfold whole
  simp only [Host.dotGeneral]
  refine DotSum.dotGeneral_sum dB 10000 rfl rfl none _ A w i _ _ (fun q => ?_) (fun q => ?_)
  · funext a; apply Fin.ext
    match a with
    | ⟨0, _⟩ => exact big_lhs_0 _ _
    | ⟨1, _⟩ => exact big_lhs_1 _ _
  · funext a; apply Fin.ext
    match a with
    | ⟨0, _⟩ => exact big_rhs_0 _ _
    | ⟨1, _⟩ => exact big_rhs_1 _ _

/-! ## The blocks -/

/-- The printed index maps over the grid: the slab and the output block move down one block per point, the right
    operand stays. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Every block row is some point's. -/
theorem idx_onto : ∀ q : Fin 25, ∃ t : Fin cfg0.N, t.val = q.val :=
  (by decide +kernel : ∀ q : Fin 25, ∃ t : Fin grid0.N, t.val = q.val)

/-- Entry (r, k) of point `t`'s slab is entry (400·t + r, k) of the matrix as the region finds it. -/
theorem slab_read (c : Dev nD) (t : Fin cfg0.N) (r : Fin 400) (k : Fin 10000) (R : Fin 10000) (hR : R.val = t.val * 400 + r.val) :
    (iblk0 V c 0 t : Vec Ideal S400x10000 .f32) (slabIdx r k) = (V c main_arg1 : S10000x10000.Idx → Ideal .f32) (matIdx R k) := by
  obtain ⟨e0, e1, -, -, -, -⟩ := idx_facts t
  unfold iblk0
  rw [View.read_apply]
  show V c main_arg1 _ = V c main_arg1 _
  congr 1
  funext a
  apply Fin.ext
  match a with
  | ⟨0, _⟩ => show win0_0.index t 0 * 400 + 1 * r.val = R.val; rw [e0, hR]; omega
  | ⟨1, _⟩ => show win0_0.index t 1 * 10000 + 1 * k.val = k.val; rw [e1]; omega

/-- The right operand's one block is the whole of it. -/
theorem col_read (c : Dev nD) (t : Fin cfg0.N) (k : Fin 10000) (j J : Fin 5) (hJ : J.val = j.val) :
    (iblk0 V c 1 t : Vec Ideal S10000x5 .f32) (colIdx k j) = (V c main_v0 : S10000x5.Idx → Ideal .f32) (colIdx k J) := by
  obtain ⟨-, -, e0, e1, -, -⟩ := idx_facts t
  unfold iblk0
  rw [View.read_apply]
  show V c main_v0 _ = V c main_v0 _
  congr 1
  funext a
  apply Fin.ext
  match a with
  | ⟨0, _⟩ => show win0_1.index t 0 * 10000 + 1 * k.val = k.val; rw [e0]; omega
  | ⟨1, _⟩ => show win0_1.index t 1 * 5 + 1 * j.val = J.val; rw [e1, hJ]; omega

/-- WHAT POINT `t` WRITES BACK is block `t` of the whole product of the arrays as the region finds them. -/
theorem flushed_eq (c : Dev nD) (t : Fin cfg0.N) :
    (dat0 V c).flushed 2 t = ((cfg0.win 2).blk t).view.read (Elt Ideal) (whole (V c main_arg1) (V c main_v0)) := by
  show (cfg0.win 2).cut (grid0.coords t) ((dat0 V c).after 2 t) = _
  rw [after0_2]
  unfold out0_2
  rw [View.canon_unit_zero hz]
  simp only [View.ld_unit_zero (S := S400x10000) hz, View.ld_unit_zero (S := S10000x5) hz]
  obtain ⟨-, -, -, -, e0, e1⟩ := idx_facts t
  funext y
  show k0_pay1 (F := Ideal) (iblk0 V c 0 t) (iblk0 V c 1 t) y = whole (V c main_arg1) (V c main_v0) (((cfg0.win 2).blk t).view.emb y)
  refine (pay_apply (iblk0 V c 0 t) (iblk0 V c 1 t) y).trans ?_
  refine Eq.trans ?_ (whole_apply (V c main_arg1) (V c main_v0) _).symm
  refine Finset.sum_congr rfl fun k _ => ?_
  refine congrArg₂ (· * ·) (slab_read V c t _ k _ ?_) (col_read V c t k _ _ ?_)
  · show win0_2.index t 0 * 400 + 1 * (y 0).val = t.val * 400 + (y 0).val
    rw [e0]; omega
  · show win0_2.index t 1 * 5 + 1 * (y 1).val = (y 1).val
    rw [e1]; omega

/-! ## The cover, and the array after the region -/

/-- An index of the output array is in point `t`'s block iff each coordinate is in the block's range on its axis. -/
theorem mem_blk (t : Fin cfg0.N) (i : S10000x5.Idx) :
    i ∈ ((cfg0.win 2).blk t).view.set ↔ ∀ a : Fin 2, win0_2.index t a * S400x5.size a ≤ (i a).val ∧ (i a).val < win0_2.index t a * S400x5.size a + S400x5.size a := by
  show i ∈ ((View.whole main_v1).slice (win0_2.rect t)).set ↔ _
  rw [View.set_slice_whole, Rect.mem_set_unit]
  exact Iff.rfl

/-- Row `r` of the output lies in the block of point `r / 400`. -/
theorem cover (i : S10000x5.Idx) : ∃ t : Fin cfg0.N, (cfg0.win 2).flush t = true ∧ i ∈ ((cfg0.win 2).blk t).view.set := by
  have hi0 : (i 0).val < 10000 := (i 0).isLt
  have hi1 : (i 1).val < 5 := (i 1).isLt
  obtain ⟨t, ht⟩ := idx_onto ⟨(i 0).val / 400, by omega⟩
  have ht' : t.val = (i 0).val / 400 := ht
  obtain ⟨-, -, -, -, e0, e1⟩ := idx_facts t
  refine ⟨t, flush0_2 t, ?_⟩
  rw [mem_blk]
  intro a
  match a with
  | ⟨0, _⟩ =>
    show win0_2.index t 0 * 400 ≤ (i 0).val ∧ (i 0).val < win0_2.index t 0 * 400 + 400
    rw [e0, ht']; omega
  | ⟨1, _⟩ =>
    show win0_2.index t 1 * 5 ≤ (i 1).val ∧ (i 1).val < win0_2.index t 1 * 5 + 5
    rw [e1]; omega

/-- THE ARRAY after the region: the whole product of the arrays as the region finds them. -/
theorem final (c : Dev nD) : (dat0 V c).arrAt 2 cfg0.N = whole (V c main_arg1) (V c main_v0) :=
  (dat0 V c).arrAt_eq_of_cover 2 _ (fun t _ => flushed_eq V c t) cover

end Cert.KernelIdeal.Rows5

end
-- ==== Proof.KernelChain.lean ====
/-
  The idealized kernel program's result, read off the boundaries of its run. Between the launch and the return the
  program alternates host operations and the two row-tiled products; at every boundary each buffer holds a known term
  of the eight arguments: x·W1 after the first stretch; A·(x·W1) after the first product (the slabs tile the rows);
  relu(· + b1)·W2 after the second stretch; A·(that) after the second product; and the logistic of
  (· + b2)ᵀ-reshaped times lin_Wᵀ plus lin_b after the last stretch. No argument is written on the way.
-/
import proofs.«145761_j6055903887557_1_alg».proof.Proof.Gen.KernelIdeal.Frame
import proofs.«145761_j6055903887557_1_alg».proof.Proof.Rows5
import proofs.«145761_j6055903887557_1_alg».proof.Proof.Rows1
import Idealize.ShloMosaic.Lib.StableHlo.Run

set_option maxRecDepth 16384

noncomputable section

open Idealize.ShloMosaic Idealize.ShloMosaic.TcCoe Idealize.SL.Sem Idealize.ShloMosaic.StableHlo

namespace Cert.KernelIdeal.Chain

open Cert.KernelIdeal Cert.KernelIdeal.Gen

variable (m : (ℓ : Loc nD τ sig) → Buf (Elt Ideal) ℓ) (ρ : Dev nD → PrngReg)

/-! ## The term of the arguments each stage holds -/

/-- x · W1. -/
abbrev T0 (x0 : FVec Ideal S10000x2 .f32) (x2 : FVec Ideal S2x5 .f32) : FVec Ideal S10000x5 .f32 :=
  Host.dotGeneral dot_S10000x2_S2x5_S10000x5_1_0_0_1_n_n none x0 x2
/-- A · (x · W1). -/
abbrev T1 (x0 : FVec Ideal S10000x2 .f32) (x1 : FVec Ideal S10000x10000 .f32) (x2 : FVec Ideal S2x5 .f32) : FVec Ideal S10000x5 .f32 :=
  Rows5.whole x1 (T0 x0 x2)
/-- relu(A · (x · W1) + b1) · W2. -/
abbrev T6 (x0 : FVec Ideal S10000x2 .f32) (x1 : FVec Ideal S10000x10000 .f32) (x2 : FVec Ideal S2x5 .f32) (x3 : FVec Ideal S5 .f32)
    (x4 : FVec Ideal S5x1 .f32) : FVec Ideal S10000x1 .f32 :=
  Host.dotGeneral dot_S10000x5_S5x1_S10000x1_1_0_0_1_n_n none
    (maximumf (addf (T1 x0 x1 x2) (broadcastInDim S10000x5 ![0, 1] bcast_S1x5_S10000x5_0_1 (broadcastInDim S1x5 ![1] bcast_S5_S1x5_1 x3)))
      (broadcastInDim S10000x5 ![] bcast_S_S10000x5 (constant S_ .f32 0x00000000#32)))
    x4
/-- A · (relu(…) · W2). -/
abbrev T7 (x0 : FVec Ideal S10000x2 .f32) (x1 : FVec Ideal S10000x10000 .f32) (x2 : FVec Ideal S2x5 .f32) (x3 : FVec Ideal S5 .f32)
    (x4 : FVec Ideal S5x1 .f32) : FVec Ideal S10000x1 .f32 :=
  Rows1.whole x1 (T6 x0 x1 x2 x3 x4)
/-- The logistic of ((A · … + b2) laid out as a row) · lin_Wᵀ + lin_b. -/
abbrev T21 (x0 : FVec Ideal S10000x2 .f32) (x1 : FVec Ideal S10000x10000 .f32) (x2 : FVec Ideal S2x5 .f32) (x3 : FVec Ideal S5 .f32)
    (x4 : FVec Ideal S5x1 .f32) (x5 : FVec Ideal S1 .f32) (x6 : FVec Ideal S1x10000 .f32) (x7 : FVec Ideal S1 .f32) : FVec Ideal S1x1 .f32 :=
  Host.divf (broadcastInDim S1x1 ![] bcast_S_S1x1 (constant S_ .f32 0x3F800000#32))
    (addf (broadcastInDim S1x1 ![] bcast_S_S1x1 (constant S_ .f32 0x3F800000#32))
      (Host.exp (Host.negf (addf
        (Host.dotGeneral dot_S1x10000_S10000x1_S1x1_1_0_0_1_n_n none
          (shapeCast _ (addf (T7 x0 x1 x2 x3 x4) (broadcastInDim S10000x1 ![0, 1] bcast_S1x1_S10000x1_0_1 (broadcastInDim S1x1 ![1] bcast_S1_S1x1_1 x5))) shapeCasts_S10000x1_S1x10000)
          (transpose S10000x1 [1, 0] x6 transposes_S1x10000_S10000x1_1_0))
        (broadcastInDim S1x1 ![1] bcast_S1_S1x1_1 x7)))))

/-- The argument arrays as launched. -/
abbrev a0 (c : Dev nD) := m ((c.tc : Thread nD τ).loc main_arg0)
abbrev a1 (c : Dev nD) := m ((c.tc : Thread nD τ).loc main_arg1)
abbrev a2 (c : Dev nD) := m ((c.tc : Thread nD τ).loc main_arg2)
abbrev a3 (c : Dev nD) := m ((c.tc : Thread nD τ).loc main_arg3)
abbrev a4 (c : Dev nD) := m ((c.tc : Thread nD τ).loc main_arg4)
abbrev a5 (c : Dev nD) := m ((c.tc : Thread nD τ).loc main_arg5)
abbrev a6 (c : Dev nD) := m ((c.tc : Thread nD τ).loc main_arg6)
abbrev a7 (c : Dev nD) := m ((c.tc : Thread nD τ).loc main_arg7)

abbrev t0 (c : Dev nD) : FVec Ideal S10000x5 .f32 := T0 (a0 m c) (a2 m c)
abbrev t1 (c : Dev nD) : FVec Ideal S10000x5 .f32 := T1 (a0 m c) (a1 m c) (a2 m c)
abbrev t6 (c : Dev nD) : FVec Ideal S10000x1 .f32 := T6 (a0 m c) (a1 m c) (a2 m c) (a3 m c) (a4 m c)
abbrev t7 (c : Dev nD) : FVec Ideal S10000x1 .f32 := T7 (a0 m c) (a1 m c) (a2 m c) (a3 m c) (a4 m c)
abbrev t21 (c : Dev nD) : FVec Ideal S1x1 .f32 := T21 (a0 m c) (a1 m c) (a2 m c) (a3 m c) (a4 m c) (a5 m c) (a6 m c) (a7 m c)

/-! ## After the first stretch (the first product's entry) -/

theorem W1_v0 (c : Dev nD) : W1 m ρ c (Proc.devRef .tc main_v0) = t0 m c := by
  show StableHlo.after hostOps0 (W0 m ρ c) (Proc.devRef .tc main_v0) = _
  after_results <;> rfl
theorem W1_arg1 (c : Dev nD) : W1 m ρ c (Proc.devRef .tc main_arg1) = m ((c.tc : Thread nD τ).loc main_arg1) := by
  show StableHlo.after hostOps0 (W0 m ρ c) (Proc.devRef .tc main_arg1) = _
  after_results <;> rfl
theorem W1_arg3 (c : Dev nD) : W1 m ρ c (Proc.devRef .tc main_arg3) = m ((c.tc : Thread nD τ).loc main_arg3) := by
  show StableHlo.after hostOps0 (W0 m ρ c) (Proc.devRef .tc main_arg3) = _
  after_results <;> rfl
theorem W1_arg4 (c : Dev nD) : W1 m ρ c (Proc.devRef .tc main_arg4) = m ((c.tc : Thread nD τ).loc main_arg4) := by
  show StableHlo.after hostOps0 (W0 m ρ c) (Proc.devRef .tc main_arg4) = _
  after_results <;> rfl
theorem W1_arg5 (c : Dev nD) : W1 m ρ c (Proc.devRef .tc main_arg5) = m ((c.tc : Thread nD τ).loc main_arg5) := by
  show StableHlo.after hostOps0 (W0 m ρ c) (Proc.devRef .tc main_arg5) = _
  after_results <;> rfl
theorem W1_arg6 (c : Dev nD) : W1 m ρ c (Proc.devRef .tc main_arg6) = m ((c.tc : Thread nD τ).loc main_arg6) := by
  show StableHlo.after hostOps0 (W0 m ρ c) (Proc.devRef .tc main_arg6) = _
  after_results <;> rfl
theorem W1_arg7 (c : Dev nD) : W1 m ρ c (Proc.devRef .tc main_arg7) = m ((c.tc : Thread nD τ).loc main_arg7) := by
  show StableHlo.after hostOps0 (W0 m ρ c) (Proc.devRef .tc main_arg7) = _
  after_results <;> rfl

/-! ## After the first product -/

theorem W2_v1 (c : Dev nD) : W2 m ρ c (Proc.devRef .tc main_v1) = t1 m c := by
  refine (W2_arr m ρ c 2).trans ?_
  refine (Rows5.final (V1 m ρ) c).trans ?_
  show Rows5.whole (W1 m ρ c (Proc.devRef .tc main_arg1)) (W1 m ρ c (Proc.devRef .tc main_v0)) = _
  rw [W1_arg1, W1_v0]
theorem W2_arg1 (c : Dev nD) : W2 m ρ c (Proc.devRef .tc main_arg1) = m ((c.tc : Thread nD τ).loc main_arg1) :=
  ((W2_arr m ρ c 0).trans (((dat0 (V1 m ρ) c).arrAt_in 0 rfl _).trans (A_eq0 (V1 m ρ) c 0))).trans (W1_arg1 m ρ c)
theorem W2_arg3 (c : Dev nD) : W2 m ρ c (Proc.devRef .tc main_arg3) = m ((c.tc : Thread nD τ).loc main_arg3) :=
  (W2_of_ne m ρ c main_arg3 (by decide)).trans (W1_arg3 m ρ c)
theorem W2_arg4 (c : Dev nD) : W2 m ρ c (Proc.devRef .tc main_arg4) = m ((c.tc : Thread nD τ).loc main_arg4) :=
  (W2_of_ne m ρ c main_arg4 (by decide)).trans (W1_arg4 m ρ c)
theorem W2_arg5 (c : Dev nD) : W2 m ρ c (Proc.devRef .tc main_arg5) = m ((c.tc : Thread nD τ).loc main_arg5) :=
  (W2_of_ne m ρ c main_arg5 (by decide)).trans (W1_arg5 m ρ c)
theorem W2_arg6 (c : Dev nD) : W2 m ρ c (Proc.devRef .tc main_arg6) = m ((c.tc : Thread nD τ).loc main_arg6) :=
  (W2_of_ne m ρ c main_arg6 (by decide)).trans (W1_arg6 m ρ c)
theorem W2_arg7 (c : Dev nD) : W2 m ρ c (Proc.devRef .tc main_arg7) = m ((c.tc : Thread nD τ).loc main_arg7) :=
  (W2_of_ne m ρ c main_arg7 (by decide)).trans (W1_arg7 m ρ c)

/-! ## After the second stretch (the second product's entry) -/

theorem W5_v6 (c : Dev nD) : W5 m ρ c (Proc.devRef .tc main_v6) = t6 m c := by
  show StableHlo.after hostOps1_2 (StableHlo.after hostOps1_1 (StableHlo.after hostOps1 (W2 m ρ c))) (Proc.devRef .tc main_v6) = _
  after_results
  rw [W2_v1, W2_arg3, W2_arg4]
  rfl
theorem W5_arg1 (c : Dev nD) : W5 m ρ c (Proc.devRef .tc main_arg1) = m ((c.tc : Thread nD τ).loc main_arg1) := by
  show StableHlo.after hostOps1_2 (StableHlo.after hostOps1_1 (StableHlo.after hostOps1 (W2 m ρ c))) (Proc.devRef .tc main_arg1) = _
  after_results
  exact W2_arg1 m ρ c
theorem W5_arg5 (c : Dev nD) : W5 m ρ c (Proc.devRef .tc main_arg5) = m ((c.tc : Thread nD τ).loc main_arg5) := by
  show StableHlo.after hostOps1_2 (StableHlo.after hostOps1_1 (StableHlo.after hostOps1 (W2 m ρ c))) (Proc.devRef .tc main_arg5) = _
  after_results
  exact W2_arg5 m ρ c
theorem W5_arg6 (c : Dev nD) : W5 m ρ c (Proc.devRef .tc main_arg6) = m ((c.tc : Thread nD τ).loc main_arg6) := by
  show StableHlo.after hostOps1_2 (StableHlo.after hostOps1_1 (StableHlo.after hostOps1 (W2 m ρ c))) (Proc.devRef .tc main_arg6) = _
  after_results
  exact W2_arg6 m ρ c
theorem W5_arg7 (c : Dev nD) : W5 m ρ c (Proc.devRef .tc main_arg7) = m ((c.tc : Thread nD τ).loc main_arg7) := by
  show StableHlo.after hostOps1_2 (StableHlo.after hostOps1_1 (StableHlo.after hostOps1 (W2 m ρ c))) (Proc.devRef .tc main_arg7) = _
  after_results
  exact W2_arg7 m ρ c

/-! ## After the second product -/

theorem W6_v7 (c : Dev nD) : W6 m ρ c (Proc.devRef .tc main_v7) = t7 m c := by
  refine (W6_arr m ρ c 2).trans ?_
  refine (Rows1.final (V5 m ρ) c).trans ?_
  show Rows1.whole (W5 m ρ c (Proc.devRef .tc main_arg1)) (W5 m ρ c (Proc.devRef .tc main_v6)) = _
  rw [W5_arg1, W5_v6]
theorem W6_arg5 (c : Dev nD) : W6 m ρ c (Proc.devRef .tc main_arg5) = m ((c.tc : Thread nD τ).loc main_arg5) :=
  (W6_of_ne m ρ c main_arg5 (by decide)).trans (W5_arg5 m ρ c)
theorem W6_arg6 (c : Dev nD) : W6 m ρ c (Proc.devRef .tc main_arg6) = m ((c.tc : Thread nD τ).loc main_arg6) :=
  (W6_of_ne m ρ c main_arg6 (by decide)).trans (W5_arg6 m ρ c)
theorem W6_arg7 (c : Dev nD) : W6 m ρ c (Proc.devRef .tc main_arg7) = m ((c.tc : Thread nD τ).loc main_arg7) :=
  (W6_of_ne m ρ c main_arg7 (by decide)).trans (W5_arg7 m ρ c)

/-! ## At the return -/

/-- The result buffer at the last boundary holds the whole composed term of the arguments. -/
theorem W7_v21 (c : Dev nD) : W7 m ρ c (Proc.devRef .tc main_v21) = t21 m c := by
  show StableHlo.after hostOps2 (W6 m ρ c) (Proc.devRef .tc main_v21) = _
  after_results
  rw [W6_v7, W6_arg5, W6_arg6, W6_arg7]
  rfl

end Cert.KernelIdeal.Chain

end
-- ==== Proof.lean ====
/-
  The kernel computes sigmoid(((A · relu(A · (x · W1) + b1) · W2) + b2) as a row · lin_Wᵀ + lin_b) with each of the two
  products by the 10000×10000 matrix A tiled over 25 slabs of 400 rows; the reference computes the same expression with
  the two products whole. A slab product's entry (r, j) is the sum over k of A(400·t + r, k) · w(k, j), which is entry
  (400·t + r, j) of the whole product, and the slabs tile the rows: so after each tiled product the output array holds the
  whole product (Rows5, Rows1). Every other operation is the same host operation in both programs, applied to equal
  operands, so the two results are one term of the arguments (`term_eq`); no law of the extended reals is used beyond
  re-indexing a sum along its one contracted axis, and the finiteness of the inputs is not needed.
  The word-level and idealized kernels' frames are the generated ones; the reference's frame is its generated run with the
  result dropped; the idealization rewrote no operation, so `preserves` is trivial.
-/
import proofs.«145761_j6055903887557_1_alg».proof.Defs
import proofs.«145761_j6055903887557_1_alg».proof.Proof.Gen.Kernel
import proofs.«145761_j6055903887557_1_alg».proof.Proof.Gen.Kernel.Skeleton
import proofs.«145761_j6055903887557_1_alg».proof.Proof.Gen.Kernel.Launch
import proofs.«145761_j6055903887557_1_alg».proof.Proof.Gen.Kernel.Points
import proofs.«145761_j6055903887557_1_alg».proof.Proof.Gen.Kernel.Frame
import proofs.«145761_j6055903887557_1_alg».proof.Proof.Gen.KernelIdeal
import proofs.«145761_j6055903887557_1_alg».proof.Proof.Gen.KernelIdeal.Skeleton
import proofs.«145761_j6055903887557_1_alg».proof.Proof.Gen.KernelIdeal.Launch
import proofs.«145761_j6055903887557_1_alg».proof.Proof.Gen.KernelIdeal.Points
import proofs.«145761_j6055903887557_1_alg».proof.Proof.Gen.KernelIdeal.Frame
import proofs.«145761_j6055903887557_1_alg».proof.Proof.Gen.ReferenceIdeal
import proofs.«145761_j6055903887557_1_alg».proof.Proof.Gen.ReferenceIdeal.Run
import proofs.«145761_j6055903887557_1_alg».proof.Proof.Gen.Pre_finite_inputs
import proofs.«145761_j6055903887557_1_alg».proof.Proof.KernelRun
import proofs.«145761_j6055903887557_1_alg».proof.Proof.KernelChain
import Idealize.ShloMosaic.Adequacy
import Idealize.ShloMosaic.Init

noncomputable section

namespace Cert.Proof

open Idealize.ShloMosaic Idealize.ShloMosaic.TcCoe Idealize.SL.Sem

/-- The reference's composed term is the kernel program's: operation by operation the same host operations of the same
    operands, the two whole products by the adjacency matrix included (the two programs print the same dimension,
    broadcast, reshape and transpose records). -/
theorem term_eq (x0 : FVec Ideal Cert.KernelIdeal.S10000x2 .f32) (x1 : FVec Ideal Cert.KernelIdeal.S10000x10000 .f32)
    (x2 : FVec Ideal Cert.KernelIdeal.S2x5 .f32) (x3 : FVec Ideal Cert.KernelIdeal.S5 .f32) (x4 : FVec Ideal Cert.KernelIdeal.S5x1 .f32)
    (x5 : FVec Ideal Cert.KernelIdeal.S1 .f32) (x6 : FVec Ideal Cert.KernelIdeal.S1x10000 .f32) (x7 : FVec Ideal Cert.KernelIdeal.S1 .f32) :
    (open Cert.ReferenceIdeal Cert.ReferenceIdeal.Gen in
      Host.divf (broadcastInDim S1x1 ![] bcast_S_S1x1 (constant S_ .f32 0x3F800000#32)) (addf (broadcastInDim S1x1 ![] bcast_S_S1x1 (constant S_ .f32 0x3F800000#32)) (Host.exp (Host.negf (addf (Host.dotGeneral dot_S1x10000_S10000x1_S1x1_1_0_0_1_n_n none (shapeCast _ (addf (Host.dotGeneral dot_S10000x10000_S10000x1_S10000x1_1_0_0_1_n_n none (x1) (Host.dotGeneral dot_S10000x5_S5x1_S10000x1_1_0_0_1_n_n none (maximumf (addf (Host.dotGeneral dot_S10000x10000_S10000x5_S10000x5_1_0_0_1_n_n none (x1) (Host.dotGeneral dot_S10000x2_S2x5_S10000x5_1_0_0_1_n_n none (x0) (x2))) (broadcastInDim S10000x5 ![0, 1] bcast_S1x5_S10000x5_0_1 (broadcastInDim S1x5 ![1] bcast_S5_S1x5_1 (x3)))) (broadcastInDim S10000x5 ![] bcast_S_S10000x5 (constant S_ .f32 0x00000000#32))) (x4))) (broadcastInDim S10000x1 ![0, 1] bcast_S1x1_S10000x1_0_1 (broadcastInDim S1x1 ![1] bcast_S1_S1x1_1 (x5)))) shapeCasts_S10000x1_S1x10000) (transpose S10000x1 [1, 0] (x6) transposes_S1x10000_S10000x1_1_0)) (broadcastInDim S1x1 ![1] bcast_S1_S1x1_1 (x7))))))
        : FVec Ideal Cert.KernelIdeal.S1x1 .f32)
      = Cert.KernelIdeal.Chain.T21 x0 x1 x2 x3 x4 x5 x6 x7 := rfl

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the arguments both programs end with the result buffer at the one term of the arguments. -/
theorem algebraic : Cert.algebraic_KernelIdeal_ReferenceIdeal := by
  intro m ρ m' ρ' _ hagree
  refine ⟨fun c => Cert.KernelIdeal.Chain.t21 m c, ?_, ?_⟩
  · exact (θ_run Cert.KernelIdeal.defs _ _).mono
      (fun r h c => ⟨(h c).1.trans (Cert.KernelIdeal.Chain.W7_v21 m ρ c), (h c).2⟩)
      (Cert.KernelIdeal.RunNamed.run_named (F := Ideal) m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7⟩ := hagree c
    rw [e0, e1, e2, e3, e4, e5, e6, e7]
    exact term_eq _ _ _ _ _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
